-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x512_p1_0_S512x1024 : S1024x512.Transposes [1, 0] S512x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Gram.lean ====
/-
  The Gaussian (RBF) Gram matrix of two families of points, entry by entry over the extended reals.

  For points a_i and b_j of a D-dimensional space, entry (i, j) is
      exp( c · max( ‖a_i‖² + ‖b_j‖² − t · ⟨a_i, b_j⟩ , z ) )
  with the squared norms and the inner product plain sums over the D coordinates, and c, t, z the values of the
  f32 words 0xBF800000, 0x40000000, 0x00000000 (−1, 2 and 0; they are never evaluated: both programs carry the
  same words). The squared distance ‖a_i − b_j‖² is taken in its expanded form, which is how both programs
  compute it, so no distributive law — which fails at the infinities — is ever used.
-/
import Idealize.ShloMosaic.PureOps.Ideal
import Idealize.ShloMosaic.Lib.ValueIdx

noncomputable section

namespace Cert.Rbf

open Idealize.ShloMosaic Idealize.ShloMosaic.ValueIdx

/-- One entry from its three sums: the two squared norms `sa`, `sb` and the inner product `sab`. -/
def entry (sa sb sab : EReal) : EReal :=
  Ideal.exp (Ideal.ofBits .f32 0xBF800000#32
    * max (sa + sb - Ideal.ofBits .f32 0x40000000#32 * sab) (Ideal.ofBits .f32 0x00000000#32))

/-- The Gram matrix of the rows of `a` (N points) against the rows of `b` (M points), all of dimension D. -/
def gram {N M D : Nat} (a : (⟨2, ![N, D]⟩ : Shape).Idx → EReal) (b : (⟨2, ![M, D]⟩ : Shape).Idx → EReal) :
    (⟨2, ![N, M]⟩ : Shape).Idx → EReal := fun i =>
  entry (∑ k : Fin D, a (ix2 (i 0) k) * a (ix2 (i 0) k)) (∑ k : Fin D, b (ix2 (i 1) k) * b (ix2 (i 1) k))
    (∑ k : Fin D, a (ix2 (i 0) k) * b (ix2 (i 1) k))

/-- The Gram matrix read at row `p`, column `q`. -/
theorem gram_apply {N M D : Nat} (a : (⟨2, ![N, D]⟩ : Shape).Idx → EReal) (b : (⟨2, ![M, D]⟩ : Shape).Idx → EReal)
    (p : Fin N) (q : Fin M) :
    gram a b (ix2 p q) = entry (∑ k : Fin D, a (ix2 p k) * a (ix2 p k)) (∑ k : Fin D, b (ix2 q k) * b (ix2 q k))
      (∑ k : Fin D, a (ix2 p k) * b (ix2 q k)) := rfl

end Cert.Rbf

end
-- ==== Proof.RefGram.lean ====
/-
  The reference program's result is the Gram matrix of its two arguments.

  The reference forms ‖a_i‖² and ‖b_j‖² by summing the squared entries of each row, spreads the first along the
  columns and the second along the rows, subtracts twice the matrix product a · bᵀ, clamps at zero, multiplies by −1
  and exponentiates. Read at entry (p, q), stage by stage: each squared norm is the sum over the row's 512
  coordinates (the host's sum starts from the word 0, which is the number 0 and drops out), the product is the sum
  over the shared coordinate, and the rest is the same arithmetic as `Rbf.entry`.
-/
import proofs.«155422_j65481071406148_1_alg».proof.Proof.Gen.ReferenceIdeal.Read
import proofs.«155422_j65481071406148_1_alg».proof.Proof.Gram

noncomputable section

namespace Cert.ReferenceIdeal.RefValue

open Cert.ReferenceIdeal Cert.ReferenceIdeal.Gen Cert.ReferenceIdeal.Read
open Idealize.ShloMosaic Idealize.ShloMosaic.ValueIdx

/-- Entry (p, q)'s first squared norm is read from row `p` of the first argument. -/
theorem rowA_idx (p q : Fin 8192) (k : Fin 512) :
    idx_main_v1 (idx_main_v5 (idx_main_v7 (ix2 p q))) k = ix2 p k :=
  funext fun a => Fin.ext (by match a with | ⟨0, _⟩ => rfl | ⟨1, _⟩ => rfl)

/-- Entry (p, q)'s second squared norm is read from row `q` of the second argument. -/
theorem rowB_idx (p q : Fin 8192) (k : Fin 512) :
    idx_main_v3 (idx_main_v6 (idx_main_v8 (ix2 p q))) k = ix2 q k :=
  funext fun a => Fin.ext (by match a with | ⟨0, _⟩ => rfl | ⟨1, _⟩ => rfl)

/-- The product's left factor at (p, q), coordinate `k`: row `p` of the first argument. -/
theorem dotA_idx (p q : Fin 8192) (k : Fin 512) : lidx_main_v4 (ix2 p q) k = ix2 p k :=
  funext fun a => Fin.ext (by match a with | ⟨0, _⟩ => rfl | ⟨1, _⟩ => rfl)

/-- The product's right factor at (p, q), coordinate `k`: row `q` of the second argument. -/
theorem dotB_idx (p q : Fin 8192) (k : Fin 512) : ridx_main_v4 (ix2 p q) k = ix2 q k :=
  funext fun a => Fin.ext (by match a with | ⟨0, _⟩ => rfl | ⟨1, _⟩ => rfl)

/-- The reference's last stage, as a function of the two arguments, is their Gram matrix. -/
theorem result_eq_gram (x0 x1 : (⟨S8192x512, .f32⟩ : BufTy).Contents (Elt Ideal)) :
    val_main_v17 (F := Ideal) x0 x1 = Cert.Rbf.gram x0 x1 := by
  funext i
  obtain ⟨p, q, rfl⟩ : ∃ (p q : Fin 8192), i = ix2 p q := ⟨i 0, i 1, eq_ix2 i⟩
  rw [Cert.Rbf.gram_apply]
  rw [val_main_v17_apply, val_main_v16_apply, val_main_v15_apply, val_main_cst_3_apply, val_main_v14_apply,
    val_main_v13_apply, val_main_cst_2_apply, val_main_v12_apply, val_main_v9_apply, val_main_v11_apply,
    val_main_v10_apply, val_main_cst_1_apply, val_main_v7_apply, val_main_v5_apply, val_main_v1_apply,
    val_main_v8_apply, val_main_v6_apply, val_main_v3_apply, val_main_v4_apply, val_main_cst_apply,
    val_main_cst_0_apply]
  simp only [val_main_v0_apply, val_main_v2_apply, rowA_idx, rowB_idx, dotA_idx, dotB_idx, Cert.Rbf.entry,
    Ideal.hostUnary_exp_def, Ideal.mulf_def, Ideal.maximumf_def, Ideal.subf_def, Ideal.addf_def, Ideal.ofBits_def,
    Ideal.ofBits_zero_f32, zero_add]

end Cert.ReferenceIdeal.RefValue

end
-- ==== Proof.LibRowNorm.lean ====
/-
  Row sums of a matrix, laid out as a column or as a row and spread over a larger matrix, read at an index.

  For a matrix `x` with `a` rows of length `d`, the lane sum over axis 1 gives one number per row. Kept as a
  column `[a, 1]` and broadcast to `[a, b]` it puts row `p`'s sum at every `(p, q)`; transposed to a row `[1, a]`
  and broadcast to `[c, a]` it puts row `q`'s sum at every `(p, q)`. These are the two halves of the outer sum
  `u_p + v_q` that a pairwise-distance kernel forms from squared norms.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowNorm

open Idealize.ShloMosaic Idealize.ShloMosaic.ValueIdx

variable {φ : FTy}

/-- The lane sum over axis 1 of an `[a, d]` matrix, at row `p`: the sum of that row's `d` entries. -/
theorem rowSum_apply {a d : ℕ} (x : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ)
    (p : Fin a) :
    multiReduction .add [1] ⟨1, ![a]⟩ x acc h hφ hacc (ix1 p) = ∑ k : Fin d, x (ix2 p k) := by
  rw [Ideal.multiReduction_add_single]
  refine Finset.sum_congr rfl fun k _ => congrArg x ?_
  funext c
  match c with
  | ⟨0, _⟩ => rfl
  | ⟨1, _⟩ => rfl

/-- A vector of length `a` cast to a column `[a, 1]`, at `(p, 0)`: its entry `p`. -/
theorem column_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  have hz : z.val = 0 := by omega
  show p.val = p.val * 1 + z.val
  omega

/-- A column `[a, 1]` broadcast to `[a, b]`, at `(p, q)`: the column's entry `p`. -/
theorem spreadColumn_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Row sums kept as a column and spread over `[a, b]`: at `(p, q)` the sum of row `p`. -/
theorem rowSum_column_apply {a b d : ℕ} (x : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ x acc h hφ hacc) hc) hb (ix2 p q)
      = ∑ k : Fin d, x (ix2 p k) := by
  rw [spreadColumn_apply, column_apply, rowSum_apply]

/-- Row sums turned into a row and spread over `[c, a]`: at `(p, q)` the sum of row `q`. -/
theorem rowSum_row_apply {a c d : ℕ} (x : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ)
    (hc : (⟨1, ![a]⟩ : Shape).ShapeCasts ⟨2, ![a, 1]⟩) (ht : (⟨2, ![a, 1]⟩ : Shape).Transposes [1, 0] ⟨2, ![1, a]⟩)
    (hb : (⟨2, ![1, a]⟩ : Shape).Broadcasts ⟨2, ![c, a]⟩) (p : Fin c) (q : Fin a) :
    broadcastTo ⟨2, ![c, a]⟩ (transpose ⟨2, ![1, a]⟩ [1, 0]
        (shapeCast ⟨2, ![a, 1]⟩ (multiReduction .add [1] ⟨1, ![a]⟩ x acc h hφ hacc) hc) ht) hb (ix2 p q)
      = ∑ k : Fin d, x (ix2 q k) := by
  rw [broadcastTo_1b_ab_apply, transpose_ix2_apply, column_apply, rowSum_apply]

end Cert.RowNorm

end
-- ==== Proof.BlockEntry.lean ====
/-
  What the kernel body computes from one block of each argument: the Gram matrix of the two blocks.

  The body holds 1024 rows of `a` and 1024 rows of `b` (each of length 512). It sums the squared entries of every row,
  keeps the first family of sums as a column and turns the second into a row, spreads both over the 1024 × 1024 tile
  and adds them; it multiplies the `a` block by the transposed `b` block on the matrix unit (the narrowing to bf16
  before it is the identity on the extended reals), which at entry (p, q) is the sum over the shared coordinate of
  a_p · b_q; and then it subtracts twice that, clamps at zero, multiplies by −1 and exponentiates — entry (p, q) of
  `Rbf.gram` of the two blocks.
-/
import proofs.«155422_j65481071406148_1_alg».proof.Proof.Gen.KernelIdeal.Skeleton
import proofs.«155422_j65481071406148_1_alg».proof.Proof.Gram
import proofs.«155422_j65481071406148_1_alg».proof.Proof.LibRowNorm
import Idealize.ShloMosaic.PureOps.Ideal.Laws
import Idealize.ShloMosaic.Lib.ValueIdx
import Idealize.ShloMosaic.Lib.ValueLayout

noncomputable section

namespace Cert.KernelIdeal.BlockEntry

open Cert.KernelIdeal Cert.KernelIdeal.Gen
open Idealize.ShloMosaic Idealize.ShloMosaic.ValueIdx

/-! ## The matrix product's operand indices, axis by axis -/

/-- The left operand's row is the output's row. -/
theorem lhs_row (i : S1024x1024.Idx) (r : dot_S1024x512_S512x1024_S1024x1024_1_0_0_1_n_n.contr.Idx) :
    (dot_S1024x512_S512x1024_S1024x1024_1_0_0_1_n_n.lhsIdx i r 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl

/-- The left operand's column is the contracted coordinate. -/
theorem lhs_col (i : S1024x1024.Idx) (r : dot_S1024x512_S512x1024_S1024x1024_1_0_0_1_n_n.contr.Idx) :
    (dot_S1024x512_S512x1024_S1024x1024_1_0_0_1_n_n.lhsIdx i r 1).val = (r ⟨0, by decide⟩).val :=
  dot_S1024x512_S512x1024_S1024x1024_1_0_0_1_n_n.lhsIdx_val_of_single rfl i r

/-- The right operand's row is the contracted coordinate. -/
theorem rhs_row (i : S1024x1024.Idx) (r : dot_S1024x512_S512x1024_S1024x1024_1_0_0_1_n_n.contr.Idx) :
    (dot_S1024x512_S512x1024_S1024x1024_1_0_0_1_n_n.rhsIdx i r 0).val = (r ⟨0, by decide⟩).val :=
  dot_S1024x512_S512x1024_S1024x1024_1_0_0_1_n_n.rhsIdx_val_of_single rfl i r

/-- The right operand's column is the output's column. -/
theorem rhs_col (i : S1024x1024.Idx) (r : dot_S1024x512_S512x1024_S1024x1024_1_0_0_1_n_n.contr.Idx) :
    (dot_S1024x512_S512x1024_S1024x1024_1_0_0_1_n_n.rhsIdx i r 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-! ## The three sums of an entry -/

/-- The product of the `a` block with the transposed `b` block, at (p, q): the inner product of row `p` of the one
    with row `q` of the other. -/
theorem cross_apply (x0 x1 : FVec Ideal S1024x512 .f32) (p q : Fin 1024) :
    matmul dot_S1024x512_S512x1024_S1024x1024_1_0_0_1_n_n none (truncf .bf16 x0 bitsLt_bf16_f32)
        (transpose S512x1024 [1, 0] (truncf .bf16 x1 bitsLt_bf16_f32) transposes_S1024x512_p1_0_S512x1024)
        (constant S1024x1024 .f32 0x00000000#32) (ix2 p q)
      = ∑ k : Fin 512, x0 (ix2 p k) * x1 (ix2 q k) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_row _ _
    | ⟨1, _⟩ => exact (lhs_col _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_row _ _).trans hk
    | ⟨1, _⟩ => exact rhs_col _ _)
  rw [el, er, transpose_ix2_apply]
  rfl

/-- The body's stored value at (p, q) is entry (p, q) of the Gram matrix of the two loaded blocks. -/
theorem pay_apply (x0 x1 : Vec Ideal S1024x512 .f32) (p q : Fin 1024) :
    k0_pay1 (F := Ideal) x0 x1 (ix2 p q) = Cert.Rbf.gram x0 x1 (ix2 p q) := by
  have ea := Cert.RowNorm.rowSum_column_apply (b := 1024) (mulf x0 x0 : FVec Ideal S1024x512 .f32) 0x00000000#32
    reduces_S1024x512_S1024 (.inl rfl) rfl shapeCasts_S1024_S1024x1 broadcasts_S1024x1_S1024x1024 p q
  have eb := Cert.RowNorm.rowSum_row_apply (c := 1024) (mulf x1 x1 : FVec Ideal S1024x512 .f32) 0x00000000#32
    reduces_S1024x512_S1024 (.inl rfl) rfl shapeCasts_S1024_S1024x1 transposes_S1024x1_p1_0_S1x1024
    broadcasts_S1x1024_S1024x1024 p q
  have ec := cross_apply x0 x1 p q
  rw [Cert.Rbf.gram_apply]
  unfold k0_pay1 Cert.Rbf.entry
  show Ideal.exp (Ideal.ofBits .f32 0xBF800000#32 * max (_ + _ - Ideal.ofBits .f32 0x40000000#32 * _) (Ideal.ofBits .f32 0x00000000#32)) = _
  rw [ea, eb, ec]
  rfl

end Cert.KernelIdeal.BlockEntry

end
-- ==== Proof.ArrayGram.lean ====
/-
  From tiles to the whole matrix: after the run the kernel's result array is the Gram matrix of its two arguments.

  The grid has 8 × 8 points. Point (r, s) loads rows 1024·r … 1024·r + 1023 of `a`, rows 1024·s … 1024·s + 1023 of `b`,
  and writes the 1024 × 1024 tile at block position (r, s) of the result. Entry (p, q) of that tile is the Gram entry
  of row p of the `a` block with row q of the `b` block (`BlockEntry.pay_apply`), that is of row 1024·r + p of `a`
  with row 1024·s + q of `b`: exactly entry (1024·r + p, 1024·s + q) of the whole Gram matrix. The 64 tiles cover the
  8192 × 8192 result, so the result array is the whole Gram matrix.
-/
import proofs.«155422_j65481071406148_1_alg».proof.Proof.Gen.KernelIdeal.Value
import proofs.«155422_j65481071406148_1_alg».proof.Proof.BlockEntry
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ArrayGram

open Cert.KernelIdeal Cert.KernelIdeal.Gen Cert.KernelIdeal.Value
open Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the 64 grid points: the `a` window follows the tile's block row, the `b` window the
    tile's block column, neither moves along the coordinate axis, and the tile's block position stays below 8. -/
theorem block_positions : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every block position of the 8 × 8 tiling is some grid point's. -/
theorem block_onto : ∀ (r s : Fin 8), ∃ t : Fin cfg0.N, win0_2.index t = ![r.val, s.val] :=
  (by decide +kernel : ∀ (r s : Fin 8), ∃ t : Fin grid0.N, win0_2.index t = ![r.val, s.val])

/-- The `a` block at point `t`, entry (p, k): row 1024·r + p of `a`, where r is the tile's block row. -/
theorem ablock_apply (c : Dev nD) (t : Fin cfg0.N) (p : Fin 1024) (k : Fin 512) (i : Fin 8192)
    (hi : i.val = win0_2.index t (0 : Fin 2) * 1024 + p.val) :
    (iblk m c 0 t : Vec Ideal S1024x512 .f32) (ix2 p k) = (V m c main_arg0 : S8192x512.Idx → EReal) (ix2 i k) := by
  obtain ⟨e0, e1, -⟩ := block_positions t
  unfold iblk
  rw [View.read_apply]
  show V m c main_arg0 _ = V m c main_arg0 _
  congr 1
  funext a
  apply Fin.ext
  match a with
  | ⟨0, _⟩ => show win0_0.index t 0 * 1024 + 1 * p.val = i.val; rw [e0, hi]; omega
  | ⟨1, _⟩ => show win0_0.index t 1 * 512 + 1 * k.val = k.val; rw [e1]; omega

/-- The `b` block at point `t`, entry (q, k): row 1024·s + q of `b`, where s is the tile's block column. -/
theorem bblock_apply (c : Dev nD) (t : Fin cfg0.N) (q : Fin 1024) (k : Fin 512) (j : Fin 8192)
    (hj : j.val = win0_2.index t (1 : Fin 2) * 1024 + q.val) :
    (iblk m c 1 t : Vec Ideal S1024x512 .f32) (ix2 q k) = (V m c main_arg1 : S8192x512.Idx → EReal) (ix2 j k) := by
  obtain ⟨-, -, e2, e3, -⟩ := block_positions t
  unfold iblk
  rw [View.read_apply]
  show V m c main_arg1 _ = V m c main_arg1 _
  congr 1
  funext a
  apply Fin.ext
  match a with
  | ⟨0, _⟩ => show win0_1.index t 0 * 1024 + 1 * q.val = j.val; rw [e2, hj]; omega
  | ⟨1, _⟩ => show win0_1.index t 1 * 512 + 1 * k.val = k.val; rw [e3]; omega

/-- The Gram matrix of the two blocks at point `t`, at (p, q), is the whole Gram matrix at the entry the tile puts
    (p, q) at. -/
theorem tile_entry (c : Dev nD) (t : Fin cfg0.N) (p q : Fin 1024) (i j : Fin 8192)
    (hi : i.val = win0_2.index t (0 : Fin 2) * 1024 + p.val) (hj : j.val = win0_2.index t (1 : Fin 2) * 1024 + q.val) :
    k0_pay1 (F := Ideal) (iblk m c 0 t) (iblk m c 1 t) (ix2 p q)
      = Cert.Rbf.gram (V m c main_arg0) (V m c main_arg1) (ix2 i j) := by
  rw [BlockEntry.pay_apply, Cert.Rbf.gram_apply, Cert.Rbf.gram_apply]
  congr 1
  · exact Finset.sum_congr rfl fun k _ => by rw [ablock_apply m c t p k i hi]
  · exact Finset.sum_congr rfl fun k _ => by rw [bblock_apply m c t q k j hj]
  · exact Finset.sum_congr rfl fun k _ => by rw [ablock_apply m c t p k i hi, bblock_apply m c t q k j hj]

/-- What point `t` writes back is its tile of the Gram matrix of the arguments. -/
theorem flushed_eq (c : Dev nD) (t : Fin cfg0.N) :
    (dats m 0 c).flushed 2 t
      = ((cfg0.win 2).blk t).view.read (Elt Ideal) (Cert.Rbf.gram (V m c main_arg0) (V m c main_arg1)) := by
  rw [flushed2]
  unfold out0_2
  rw [View.canon_unit_zero zero_offsets]
  simp only [View.ld_unit_zero (S := S1024x512) zero_offsets]
  funext y
  rw [View.read_apply]
  show k0_pay1 (F := Ideal) (iblk m c 0 t) (iblk m c 1 t) y = _
  obtain ⟨-, -, -, -, b0, b1⟩ := block_positions t
  have hy0 : (y 0).val < 1024 := (y 0).isLt
  have hy1 : (y 1).val < 1024 := (y 1).isLt
  rw [eq_ix2 y]
  refine (tile_entry m c t ⟨(y 0).val, hy0⟩ ⟨(y 1).val, hy1⟩
    ⟨win0_2.index t (0 : Fin 2) * 1024 + (y 0).val, by omega⟩ ⟨win0_2.index t (1 : Fin 2) * 1024 + (y 1).val, by omega⟩ rfl rfl).trans ?_
  congr 1
  funext a
  apply Fin.ext
  match a with
  | ⟨0, _⟩ => show win0_2.index t 0 * 1024 + (y 0).val = win0_2.index t 0 * 1024 + 1 * (y 0).val; omega
  | ⟨1, _⟩ => show win0_2.index t 1 * 1024 + (y 1).val = win0_2.index t 1 * 1024 + 1 * (y 1).val; omega

/-- An index of the result is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The 64 tiles cover the result: entry (u, v) lies in the tile at block position (u / 1024, v / 1024). -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the Gram matrix of the argument arrays. -/
theorem final_gram (c : Dev nD) :
    (dats m 0 c).arrAt 2 cfg0.N = Cert.Rbf.gram (m ((c : Thread nD τ).loc main_arg0)) (m ((c : Thread nD τ).loc main_arg1)) :=
  (dats m 0 c).arrAt_eq_of_cover 2 (Cert.Rbf.gram (V m c main_arg0) (V m c main_arg1)) (fun t _ => flushed_eq m c t) tiles_cover

/-- The kernel's run, read: the result array at the Gram matrix of the arguments, the arguments unchanged. -/
theorem run : θ_run defs (onTc (τ := τ) (main (F := Ideal))) ⟨m, fun _ => 0, ρ⟩ fun r => ∀ c : Dev nD,
      r.2.mem ((c : Thread nD τ).loc main_v0) = Cert.Rbf.gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_gram m c), (h c).2⟩) (run_blocks m ρ)

end Cert.KernelIdeal.ArrayGram

end
-- ==== Proof.lean ====
/-
  The Gaussian (RBF) Gram matrix K[i, j] = exp(−max(‖a_i‖² + ‖b_j‖² − 2 ⟨a_i, b_j⟩, 0)) of two families of 8192 points
  in dimension 512: a tiled kernel (an 8 × 8 grid of 1024 × 1024 tiles, each from one block of `a` and one block of `b`)
  against the plain whole-array computation.

  Over the extended reals both programs compute, at entry (i, j), the same expression of the same three sums — the
  two squared norms and the inner product, each a sum over the 512 coordinates — with the same three constants
  (`Rbf.entry`, Proof/Gram.lean). Nothing is regrouped or distributed, so finiteness of the inputs is never used.
  • Proof/RefGram.lean: the reference's result, read stage by stage at an entry, is `Rbf.gram a b`.
  • Proof/BlockEntry.lean: the kernel body's stored tile is `Rbf.gram` of the two loaded blocks (the row sums by
    Proof/LibRowNorm.lean, the matrix product as a sum over the contracted coordinate).
  • Proof/ArrayGram.lean: the tile written at block position (r, s) is that tile of `Rbf.gram a b`, and the 64 tiles
    cover the result, so the kernel's result array is `Rbf.gram a b`.
  The three frames are the generated ones (the reference's from its generated run), and the idealization rewrote
  nothing, so `preserves` is trivial.
-/
import proofs.«155422_j65481071406148_1_alg».proof.Defs
import proofs.«155422_j65481071406148_1_alg».proof.Proof.Gen.Kernel
import proofs.«155422_j65481071406148_1_alg».proof.Proof.Gen.Kernel.Skeleton
import proofs.«155422_j65481071406148_1_alg».proof.Proof.Gen.Kernel.Launch
import proofs.«155422_j65481071406148_1_alg».proof.Proof.Gen.Kernel.Points
import proofs.«155422_j65481071406148_1_alg».proof.Proof.Gen.Kernel.Frame
import proofs.«155422_j65481071406148_1_alg».proof.Proof.Gen.KernelIdeal
import proofs.«155422_j65481071406148_1_alg».proof.Proof.Gen.KernelIdeal.Skeleton
import proofs.«155422_j65481071406148_1_alg».proof.Proof.Gen.KernelIdeal.Launch
import proofs.«155422_j65481071406148_1_alg».proof.Proof.Gen.KernelIdeal.Points
import proofs.«155422_j65481071406148_1_alg».proof.Proof.Gen.KernelIdeal.Frame
import proofs.«155422_j65481071406148_1_alg».proof.Proof.Gen.ReferenceIdeal
import proofs.«155422_j65481071406148_1_alg».proof.Proof.Gen.Pre_finite_inputs
import proofs.«155422_j65481071406148_1_alg».proof.Proof.Gen.KernelIdeal.Value
import proofs.«155422_j65481071406148_1_alg».proof.Proof.Gen.ReferenceIdeal.Run
import proofs.«155422_j65481071406148_1_alg».proof.Proof.Gen.ReferenceIdeal.Read
import proofs.«155422_j65481071406148_1_alg».proof.Proof.RefGram
import proofs.«155422_j65481071406148_1_alg».proof.Proof.ArrayGram
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the Gram matrix of the (agreeing) arguments in their result arrays. -/
theorem algebraic : Cert.algebraic_KernelIdeal_ReferenceIdeal := by
  intro m ρ m' ρ' _ hagree
  refine ⟨fun c => Cert.Rbf.gram (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayGram.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq_gram, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
